-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x128 : Shape := ⟨2, ![1024, 128]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S2048x1024 .f32) (main_arg1 : FVec F S1024x128 .f32) (main_arg2 : FVec F S1024x128 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  main_v13
-- ==== Kernel.lean ====
abbrev S2048x1024 : Shape := ⟨2, ![2048, 1024]⟩
abbrev S1024x128 : Shape := ⟨2, ![1024, 128]⟩
abbrev S2048x131072 : Shape := ⟨2, ![2048, 131072]⟩
abbrev S128x128 : Shape := ⟨2, ![128, 128]⟩
abbrev S128x16384 : Shape := ⟨2, ![128, 16384]⟩
abbrev S128x128x1 : Shape := ⟨3, ![128, 128, 1]⟩
abbrev S1x128x128 : Shape := ⟨3, ![1, 128, 128]⟩
abbrev S128x128x128 : Shape := ⟨3, ![128, 128, 128]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S1024x128, .f32⟩
  | .hbm, ⟨3, _⟩ => ⟨S2048x131072, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x16384, .f32⟩
  | .local _ .vmem, ⟨7, _⟩ => ⟨S128x16384, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S128x128_S128x128_0_0 : ∀ a, (![0, 0] : Fin 2 → Nat) a + S128x128.size a ≤ S128x128.size a
  h_S128x128 : 0 < S128x128.numel
  shapeCasts_S128x128_S128x128x1 : S128x128.ShapeCasts S128x128x1
  shapeCasts_S128x128_S1x128x128 : S128x128.ShapeCasts S1x128x128
  broadcasts_S128x128x1_S128x128x128 : S128x128x1.Broadcasts S128x128x128
  broadcasts_S1x128x128_S128x128x128 : S1x128x128.Broadcasts S128x128x128
  shapeCasts_S128x128x128_S128x16384 : S128x128x128.ShapeCasts S128x16384
  inb_S128x16384_S128x16384_0_0 : ∀ a, (![0, 0] : Fin 2 → Nat) a + S128x16384.size a ≤ S128x16384.size a
  h_S128x16384 : 0 < S128x16384.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S2048x1024.size a
  hwx0_0 : ∀ i : grid0.Coords, EltTy.bits .f32 = 32 ∨ (Rect.block (s := S2048x1024) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x128.size a
  hwx0_2 : ∀ i : grid0.Coords, EltTy.bits .f32 = 32 ∨ (Rect.block (s := S1024x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16384.size a ≤ S2048x131072.size a
  hwx0_3 : ∀ i : grid0.Coords, EltTy.bits .f32 = 32 ∨ (Rect.block (s := S2048x131072) S128x16384.size (cc0_transform_3 i) (hinb0_3 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x128 : Shape := ⟨2, ![1024, 128]⟩
abbrev S2048x1024x1 : Shape := ⟨3, ![2048, 1024, 1]⟩
abbrev S1x1024x128 : Shape := ⟨3, ![1, 1024, 128]⟩
abbrev S2048x1024x128 : Shape := ⟨3, ![2048, 1024, 128]⟩
abbrev S2048x131072 : Shape := ⟨2, ![2048, 131072]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x128, .f32⟩
  | .hbm, ⟨2, _⟩ => ⟨S1024x128, .f32⟩
  | .hbm, ⟨3, _⟩ => ⟨S2048x1024x1, .f32⟩
  | .hbm, ⟨4, _⟩ => ⟨S1x1024x128, .f32⟩
  | .hbm, ⟨5, _⟩ => ⟨S2048x1024x128, .f32⟩
  | .hbm, ⟨6, _⟩ => ⟨S2048x1024x128, .f32⟩
  | .hbm, ⟨7, _⟩ => ⟨S2048x1024x128, .f32⟩
  | .hbm, ⟨8, _⟩ => ⟨S1x1024x128, .f32⟩
  | .hbm, ⟨9, _⟩ => ⟨S2048x1024x128, .f32⟩
  | .hbm, ⟨10, _⟩ => ⟨S2048x1024x128, .f32⟩
  | .hbm, ⟨11, _⟩ => ⟨S2048x131072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S2048x1024_S2048x1024x1_0_1 : S2048x1024.BroadcastsInDim S2048x1024x1 (![0, 1] : Fin 2 → Fin S2048x1024x1.rank)
  bcast_S1024x128_S1x1024x128_1_2 : S1024x128.BroadcastsInDim S1x1024x128 (![1, 2] : Fin 2 → Fin S1x1024x128.rank)
  bcast_S2048x1024x1_S2048x1024x128_0_1_2 : S2048x1024x1.BroadcastsInDim S2048x1024x128 (![0, 1, 2] : Fin 3 → Fin S2048x1024x128.rank)
  bcast_S1x1024x128_S2048x1024x128_0_1_2 : S1x1024x128.BroadcastsInDim S2048x1024x128 (![0, 1, 2] : Fin 3 → Fin S2048x1024x128.rank)
  shapeCasts_S2048x1024x128_S2048x131072 : S2048x1024x128.ShapeCasts S2048x131072

variable [Facts₀]

class Facts : Prop extends Facts₀ where

variable [Facts]
-- ==== Proof.Spec.lean ====
/-
  The function both programs compute.

  Each of the 1024 hidden units `h` carries its own affine map of one real variable into 128 channels,
  `s ↦ s · W[h, ·] + b[h, ·]`. A row of activations is sent to the 1024 images of its entries laid side by side, so
  column `j` of the result belongs to unit `j / 128` and is channel `j % 128` of it:

      out[r, j] = x[r, j / 128] · W[j / 128, j % 128] + b[j / 128, j % 128].

  The product and the sum are the float instance's own (`FloatOps.mulf`, `FloatOps.addf`), so this is one definition
  for every instance; over the extended reals they are the exact product and sum. Neither program rearranges the
  arithmetic: both apply these two operations to these three entries, and they differ only in how the entries are laid
  out on the way (broadcasts and a reshape of whole arrays on one side, 128 × 128 tiles on the other). So no law of
  arithmetic, and no finiteness of the inputs, is needed to identify them: the whole proof is index arithmetic.
-/
import Idealize.ShloMosaic.Lib.ValueIdx

noncomputable section

namespace Cert.PerUnitAffine

open Idealize.ShloMosaic Idealize.ShloMosaic.ValueIdx

variable {F : FTy → Type} [FloatOps F]

/-- The activations, one row per example and one column per hidden unit. -/
abbrev Act : Shape := ⟨2, ![2048, 1024]⟩
/-- The weights and the biases, one row per hidden unit and one column per channel. -/
abbrev Par : Shape := ⟨2, ![1024, 128]⟩
/-- The result, one row per example, the units' 128 channels side by side. -/
abbrev Out : Shape := ⟨2, ![2048, 131072]⟩

/-- The hidden unit that result column `i 1` belongs to. -/
abbrev unitOf (i : Out.Idx) : Fin 1024 := ⟨(i 1).val / 128, by have h : (i 1).val < 131072 := (i 1).isLt; omega⟩

/-- The channel of that unit it holds. -/
abbrev chanOf (i : Out.Idx) : Fin 128 := ⟨(i 1).val % 128, Nat.mod_lt _ (by decide)⟩

/-- Where a result entry reads the activations: its own row, its unit's column. -/
abbrev actAt (i : Out.Idx) : Act.Idx := ix2 (⟨(i 0).val, (i 0).isLt⟩ : Fin 2048) (unitOf i)

/-- Where it reads the weights and the biases: its unit's row, its channel's column. -/
abbrev parAt (i : Out.Idx) : Par.Idx := ix2 (unitOf i) (chanOf i)

/-- The result array as one function of the three argument arrays, entry by entry. -/
def result (x : Vec F Act .f32) (w b : Vec F Par .f32) : Vec F Out .f32 :=
  fun i => FloatOps.addf (FloatOps.mulf (x (actAt i)) (w (parAt i))) (b (parAt i))

theorem result_apply (x : Vec F Act .f32) (w b : Vec F Par .f32) (i : Out.Idx) :
    result x w b i = FloatOps.addf (FloatOps.mulf (x (actAt i)) (w (parAt i))) (b (parAt i)) := rfl

end Cert.PerUnitAffine

end
-- ==== Proof.RefValue.lean ====
/-
  The reference's run, read entry by entry, is the specification.

  The reference broadcasts the activations to `[2048, 1024, 1]` and on to `[2048, 1024, 128]`, the weights and the
  biases to `[1, 1024, 128]` and on to the same shape, multiplies and adds there, and reshapes `[2048, 1024, 128]` to
  `[2048, 131072]`. Entry `(r, j)` of the reshaped array is entry `(r, j / 128, j % 128)` of the rank-3 one (row-major
  positions `r · 131072 + j` on both sides), and there the three broadcasts read `x[r, j / 128]`, `W[j / 128, j % 128]`
  and `b[j / 128, j % 128]`: exactly the three entries the specification names.
-/
import proofs.«116399_j81106162418203_1_alg».proof.Proof.Gen.ReferenceIdeal.Read
import proofs.«116399_j81106162418203_1_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.PerUnitAffine

variable {F : FTy → Type} [FloatOps F]

/-- Through the reshape and the two broadcasts of the activations, result entry `(r, j)` reads `x[r, j / 128]`. -/
theorem act_index (i : S2048x131072.Idx) : idx_main_v0 (idx_main_v2 (idx_main_v8 i)) = actAt i := by
  have h0 : (i 0).val < 2048 := (i 0).isLt
  have h1 : (i 1).val < 131072 := (i 1).isLt
  funext a; apply Fin.ext
  match a with
  | ⟨0, _⟩ => show ((i 0).val * 131072 + (i 1).val) / 131072 = (i 0).val; omega
  | ⟨1, _⟩ => show ((i 0).val * 131072 + (i 1).val) / 128 % 1024 = (i 1).val / 128; omega

/-- Through the reshape and the two broadcasts of the weights, it reads `W[j / 128, j % 128]`. -/
theorem weight_index (i : S2048x131072.Idx) : idx_main_v1 (idx_main_v3 (idx_main_v8 i)) = parAt i := by
  have h0 : (i 0).val < 2048 := (i 0).isLt
  have h1 : (i 1).val < 131072 := (i 1).isLt
  funext a; apply Fin.ext
  match a with
  | ⟨0, _⟩ => show ((i 0).val * 131072 + (i 1).val) / 128 % 1024 = (i 1).val / 128; omega
  | ⟨1, _⟩ => show ((i 0).val * 131072 + (i 1).val) % 128 = (i 1).val % 128; omega

/-- And likewise the biases at `b[j / 128, j % 128]`. -/
theorem bias_index (i : S2048x131072.Idx) : idx_main_v5 (idx_main_v6 (idx_main_v8 i)) = parAt i := by
  have h0 : (i 0).val < 2048 := (i 0).isLt
  have h1 : (i 1).val < 131072 := (i 1).isLt
  funext a; apply Fin.ext
  match a with
  | ⟨0, _⟩ => show ((i 0).val * 131072 + (i 1).val) / 128 % 1024 = (i 1).val / 128; omega
  | ⟨1, _⟩ => show ((i 0).val * 131072 + (i 1).val) % 128 = (i 1).val % 128; omega

/-- The reference's result, as a function of its three arguments, is the specification: the nine operations read one at
    a time, the composed index maps identified with the specification's. -/
theorem reference_eq (x0 : (⟨S2048x1024, .f32⟩ : BufTy).Contents (Elt F)) (x1 x2 : (⟨S1024x128, .f32⟩ : BufTy).Contents (Elt F)) :
    val_main_v8 (F := F) x0 x1 x2 = result x0 x1 x2 := by
  funext i
  rw [val_main_v8_apply, val_main_v7_apply, val_main_v4_apply, val_main_v2_apply, val_main_v0_apply,
    val_main_v3_apply, val_main_v1_apply, val_main_v6_apply, val_main_v5_apply,
    act_index, weight_index, bias_index, result_apply]

end Cert.ReferenceIdeal.RefValue

end
-- ==== Proof.KernelValue.lean ====
/-
  The kernel's result array, after the run, is the specification.

  The grid has 8 × 16 points. At point `(h, r)` the body is handed rows `128 r … 128 r + 127`, columns
  `128 h … 128 h + 127` of the activations, rows `128 h … 128 h + 127` of the weights and of the biases, and fills the
  `128 × 16384` tile of the result at block row `r`, block column `h`. Entry `(p, q)` of that tile is
  `x_tile[p, q / 128] · W_tile[q / 128, q % 128] + b_tile[q / 128, q % 128]` (the generated value leg's `E3`).
  The tile sits at rows `128 r + p`, columns `16384 h + q` of the result, and since `16384 = 128 · 128`,

      (16384 h + q) / 128 = 128 h + q / 128        (16384 h + q) % 128 = q % 128,

  so the tile entry reads exactly `x[128 r + p, j / 128]`, `W[j / 128, j % 128]`, `b[j / 128, j % 128]` with
  `j = 16384 h + q`: each point writes back its tile of ONE whole-array function, the specification. The 128 tiles
  cover the `2048 × 131072` result (row `i` lies in block row `i / 128`, column `j` in block column `j / 16384`),
  so the array ends holding the specification everywhere.
-/
import proofs.«116399_j81106162418203_1_alg».proof.Proof.Gen.KernelIdeal.Value
import proofs.«116399_j81106162418203_1_alg».proof.Proof.Spec

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.PerUnitAffine

variable {F : FTy → Type} [FloatOps F]
variable (m : (ℓ : Loc nD τ sig) → Buf (Elt F) ℓ) (ρ : Dev nD → PrngReg)

/-- The body's loads and its store start at the origin of their buffers. -/
theorem origin : (![0, 0] : Fin 2 → Nat) = fun _ => 0 := funext fun a => by fin_cases a <;> rfl

/-- A tile entry is the specification's entry as soon as its three reads are the specification's three reads. Stated
    over arbitrary tiles and arrays, so that it is used at a grid point's tiles by supplying the three equations. -/
theorem tile_entry (P0 P1 P2 : Vec F S128x128 .f32) (X : Vec F S2048x1024 .f32) (W B : Vec F S1024x128 .f32)
    (y : S128x16384.Idx) (i : S2048x131072.Idx)
    (h0 : P0 (ix3_0 y) = X (actAt i)) (h1 : P1 (ix3_1 y) = W (parAt i)) (h2 : P2 (ix3_2 y) = B (parAt i)) :
    E3 P0 P1 P2 y = result X W B i := by
  show FloatOps.addf (FloatOps.mulf (P0 (ix3_0 y)) (P1 (ix3_1 y))) (P2 (ix3_2 y)) = _
  rw [h0, h1, h2, result_apply]

/-- The printed index maps, decided over the 128 grid points: the activations' tile moves with the result's tile on
    both axes; the weights' and the biases' tile row is the result's tile column, their tile column 0; and the result's
    tile indices stay inside 16 × 8. -/
theorem idx_facts : ∀ t : Fin cfg0.N,
    win0_0.index t (0 : Fin 2) = win0_3.index t (0 : Fin 2)
    ∧ win0_0.index t (1 : Fin 2) = win0_3.index t (1 : Fin 2)
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0
    ∧ win0_3.index t (0 : Fin 2) ≤ 15
    ∧ win0_3.index t (1 : Fin 2) ≤ 7 :=
  (by decide +kernel : ∀ t : Fin grid0.N, _)

/-- Every tile of the 16 × 8 box is some grid point's. -/
theorem idx_onto : ∀ (q0 : Fin 16) (q1 : Fin 8), ∃ t : Fin cfg0.N, win0_3.index t = ![q0.val, q1.val] :=
  (by decide +kernel : ∀ (q0 : Fin 16) (q1 : Fin 8), ∃ t : Fin grid0.N, win0_3.index t = ![q0.val, q1.val])

/-- WHAT POINT `t` WRITES BACK is tile `t` of the specification of the argument arrays as the region finds them. -/
theorem flushed_eq (c : Dev nD) (t : Fin cfg0.N) :
    (dats m 0 c).flushed 3 t
      = ((cfg0.win 3).blk t).view.read (Elt F) (result (V m c main_arg0) (V m c main_arg1) (V m c main_arg2)) := by
  rw [flushed3]
  unfold out0_3
  simp only [View.ld_unit_zero (S := S128x128) origin]
  obtain ⟨e0, e1, e2, e3, e4, e5, e6, e7⟩ := idx_facts t
  funext j
  have hj0 : (j 0).val < 128 := (j 0).isLt
  have hj1 : (j 1).val < 16384 := (j 1).isLt
  show View.canon [⟨r0_1, k0_pay1 (iblk m c 0 t) (iblk m c 1 t) (iblk m c 2 t)⟩] j
    = result (V m c main_arg0) (V m c main_arg1) (V m c main_arg2) (((cfg0.win 3).blk t).view.emb j)
  refine (canon3_eq (iblk m c 0 t) (iblk m c 1 t) (iblk m c 2 t) j).trans ?_
  refine tile_entry (iblk m c 0 t) (iblk m c 1 t) (iblk m c 2 t) (V m c main_arg0) (V m c main_arg1) (V m c main_arg2) j
    (((cfg0.win 3).blk t).view.emb j) ?_ ?_ ?_
  · show V m c main_arg0 (((cfg0.win 0).blk t).view.emb (ix3_0 j)) = V m c main_arg0 (actAt (((cfg0.win 3).blk t).view.emb j))
    congr 1; funext a; apply Fin.ext
    match a with
    | ⟨0, _⟩ =>
      show win0_0.index t (0 : Fin 2) * 128 + 1 * (j 0).val = win0_3.index t (0 : Fin 2) * 128 + 1 * (j 0).val
      omega
    | ⟨1, _⟩ =>
      show win0_0.index t (1 : Fin 2) * 128 + 1 * ((j 1).val / 128) = (win0_3.index t (1 : Fin 2) * 16384 + 1 * (j 1).val) / 128
      omega
  · show V m c main_arg1 (((cfg0.win 1).blk t).view.emb (ix3_1 j)) = V m c main_arg1 (parAt (((cfg0.win 3).blk t).view.emb j))
    congr 1; funext a; apply Fin.ext
    match a with
    | ⟨0, _⟩ =>
      show win0_1.index t (0 : Fin 2) * 128 + 1 * ((j 1).val / 128) = (win0_3.index t (1 : Fin 2) * 16384 + 1 * (j 1).val) / 128
      omega
    | ⟨1, _⟩ =>
      show win0_1.index t (1 : Fin 2) * 128 + 1 * ((j 1).val % 128) = (win0_3.index t (1 : Fin 2) * 16384 + 1 * (j 1).val) % 128
      omega
  · show V m c main_arg2 (((cfg0.win 2).blk t).view.emb (ix3_2 j)) = V m c main_arg2 (parAt (((cfg0.win 3).blk t).view.emb j))
    congr 1; funext a; apply Fin.ext
    match a with
    | ⟨0, _⟩ =>
      show win0_2.index t (0 : Fin 2) * 128 + 1 * ((j 1).val / 128) = (win0_3.index t (1 : Fin 2) * 16384 + 1 * (j 1).val) / 128
      omega
    | ⟨1, _⟩ =>
      show win0_2.index t (1 : Fin 2) * 128 + 1 * ((j 1).val % 128) = (win0_3.index t (1 : Fin 2) * 16384 + 1 * (j 1).val) % 128
      omega

/-- An index of the result is in point `t`'s tile iff each coordinate is in the tile's range on its axis. -/
theorem mem_tile (t : Fin cfg0.N) (i : S2048x131072.Idx) :
    i ∈ ((cfg0.win 3).blk t).view.set
      ↔ ∀ a : Fin 2, win0_3.index t a * S128x16384.size a ≤ (i a).val
          ∧ (i a).val < win0_3.index t a * S128x16384.size a + S128x16384.size a := by
  show i ∈ ((View.whole main_v0).slice (win0_3.rect t)).set ↔ _
  rw [View.set_slice_whole, Rect.mem_set_unit]
  exact Iff.rfl

/-- THE TILES COVER THE RESULT: entry `(i, j)` lies in the tile at block row `i / 128`, block column `j / 16384`. -/
theorem covered (i : S2048x131072.Idx) :
    ∃ t : Fin cfg0.N, (cfg0.win 3).flush t = true ∧ i ∈ ((cfg0.win 3).blk t).view.set := by
  have hi0 : (i 0).val < 2048 := (i 0).isLt
  have hi1 : (i 1).val < 131072 := (i 1).isLt
  obtain ⟨t, ht⟩ := idx_onto ⟨(i 0).val / 128, by omega⟩ ⟨(i 1).val / 16384, by omega⟩
  have q0 : win0_3.index t (0 : Fin 2) = (i 0).val / 128 := congrFun ht 0
  have q1 : win0_3.index t (1 : Fin 2) = (i 1).val / 16384 := congrFun ht 1
  refine ⟨t, flush0_3 t, ?_⟩
  rw [mem_tile]
  intro a
  match a with
  | ⟨0, _⟩ =>
    show win0_3.index t (0 : Fin 2) * 128 ≤ (i 0).val ∧ (i 0).val < win0_3.index t (0 : Fin 2) * 128 + 128
    omega
  | ⟨1, _⟩ =>
    show win0_3.index t (1 : Fin 2) * 16384 ≤ (i 1).val ∧ (i 1).val < win0_3.index t (1 : Fin 2) * 16384 + 16384
    omega

/-- THE RESULT ARRAY after the run is the specification of the arguments as launched. -/
theorem final (c : Dev nD) :
    (dats m 0 c).arrAt 3 cfg0.N
      = result (m ((c : Thread nD τ).loc main_arg0)) (m ((c : Thread nD τ).loc main_arg1)) (m ((c : Thread nD τ).loc main_arg2)) :=
  (dats m 0 c).arrAt_eq_of_cover 3 (result (V m c main_arg0) (V m c main_arg1) (V m c main_arg2))
    (fun t _ => flushed_eq m c t) covered

/-- The kernel's run re-posted: the result array at the specification of the arguments, the arguments unchanged. -/
theorem run : θ_run defs (onTc (τ := τ) (main (F := F))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.ArrayValue

end
-- ==== Proof.lean ====
/-
  The certificate of the per-unit affine layer `out[r, 128 h + d] = x[r, h] · W[h, d] + b[h, d]`: a tiled kernel
  (8 × 16 grid points, each filling one 128 × 16384 tile of the result from 128 × 128 tiles of the three arguments)
  against the plain array program (broadcast to `[2048, 1024, 128]`, multiply, add, reshape to `[2048, 131072]`).

  * The kernel's frames, at the word level and over the extended reals: every access of the body is a whole-buffer
    rectangle, so the generated frame is the whole proof of each.
  * The reference has no kernel; its frame is its run with the result forgotten.
  * The idealized kernel is the printed kernel read over the extended reals with no operation rewritten, so there is
    nothing to preserve.
  * The two idealized programs end with equal results: both end holding `PerUnitAffine.result` of the same three
    argument arrays. For the kernel this is `KernelIdeal.ArrayValue.run` (each grid point writes back its tile of
    that one function, and the tiles cover the array); for the reference it is `ReferenceIdeal.RefValue.reference_eq`
    (the nine array operations read one entry at a time). No arithmetic law and no finiteness of the inputs is used:
    both sides apply the same product and the same sum to the same three entries.
-/
import proofs.«116399_j81106162418203_1_alg».proof.Defs
import proofs.«116399_j81106162418203_1_alg».proof.Proof.Gen.Kernel
import proofs.«116399_j81106162418203_1_alg».proof.Proof.Gen.Kernel.Skeleton
import proofs.«116399_j81106162418203_1_alg».proof.Proof.Gen.Kernel.Launch
import proofs.«116399_j81106162418203_1_alg».proof.Proof.Gen.Kernel.Points
import proofs.«116399_j81106162418203_1_alg».proof.Proof.Gen.Kernel.Frame
import proofs.«116399_j81106162418203_1_alg».proof.Proof.Gen.KernelIdeal
import proofs.«116399_j81106162418203_1_alg».proof.Proof.Gen.KernelIdeal.Skeleton
import proofs.«116399_j81106162418203_1_alg».proof.Proof.Gen.KernelIdeal.Launch
import proofs.«116399_j81106162418203_1_alg».proof.Proof.Gen.KernelIdeal.Points
import proofs.«116399_j81106162418203_1_alg».proof.Proof.Gen.KernelIdeal.Frame
import proofs.«116399_j81106162418203_1_alg».proof.Proof.Gen.ReferenceIdeal
import proofs.«116399_j81106162418203_1_alg».proof.Proof.Gen.Pre_finite_inputs
import proofs.«116399_j81106162418203_1_alg».proof.Proof.Gen.KernelIdeal.Value
import proofs.«116399_j81106162418203_1_alg».proof.Proof.Gen.ReferenceIdeal.Run
import proofs.«116399_j81106162418203_1_alg».proof.Proof.Gen.ReferenceIdeal.Read
import proofs.«116399_j81106162418203_1_alg».proof.Proof.Spec
import proofs.«116399_j81106162418203_1_alg».proof.Proof.RefValue
import proofs.«116399_j81106162418203_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with what the result holds forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the three arguments, both idealized programs end holding the specification of those
    arguments: the kernel by its tiles, the reference by its operations read at an entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
